-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S8x2 : Shape := ⟨2, ![8, 2]⟩
abbrev S64x64 : Shape := ⟨2, ![64, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S8x2 : S_.BroadcastsInDim S8x2 (![] : Fin 0 → Fin S8x2.rank)
  reducesTo_S8x2_S_d0_1 : S8x2.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S262144x64 .f32) (main_arg1 : FVec F S8x2 .f32) (main_arg2 : IVec S64x64 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S8x2 .f32 := Host.absf main_arg1
  let main_cst_0 : FVec F S_ .f32 := constant S_ .f32 0x7F800000#32
  let main_v5 : FVec F S8x2 .f32 := broadcastInDim S8x2 ![] bcast_S_S8x2 main_cst_0
  let main_v6 : IVec S8x2 1 := cmpf .olt main_v4 main_v5
  let main_c_1 : IVec S_ 1 := constantI S_ 1 1#1
  let main_v7 : IVec S_ 1 := (fun x v => Host.reduce IntOp.andi x v reducesTo_S8x2_S_d0_1 h_S_) main_v6 main_c_1
  let main_v8 : IVec S_ 1 := andi main_v3 main_v7
  let main_c_2 : IVec S_ 32 := constantI S_ 32 0#32
  let main_v9 : IVec S64x64 32 := broadcastInDim S64x64 ![] bcast_S_S64x64 main_c_2
  let main_v10 : IVec S64x64 1 := cmpi .sge main_arg2 main_v9
  let main_c_3 : IVec S_ 32 := constantI S_ 32 2#32
  let main_v11 : IVec S64x64 32 := broadcastInDim S64x64 ![] bcast_S_S64x64 main_c_3
  let main_v12 : IVec S64x64 1 := cmpi .slt main_arg2 main_v11
  let main_v13 : IVec S64x64 1 := andi main_v10 main_v12
  let main_c_4 : IVec S_ 1 := constantI S_ 1 1#1
  let main_v14 : IVec S_ 1 := (fun x v => Host.reduce IntOp.andi x v reducesTo_S64x64_S_d0_1 h_S_) main_v13 main_c_4
  let main_v15 : IVec S_ 1 := andi main_v8 main_v14
  main_v15
-- ==== Kernel.lean ====
abbrev S262144x64 : Shape := ⟨2, ![262144, 64]⟩
abbrev S8x2 : Shape := ⟨2, ![8, 2]⟩
abbrev S64x64 : Shape := ⟨2, ![64, 64]⟩
abbrev S_ : Shape := ⟨0, ![]⟩
abbrev S8x1 : Shape := ⟨2, ![8, 1]⟩
abbrev S8 : Shape := ⟨1, ![8]⟩
abbrev S8x64 : Shape := ⟨2, ![8, 64]⟩
abbrev S512 : Shape := ⟨1, ![512]⟩
abbrev S1x512 : Shape := ⟨2, ![1, 512]⟩
abbrev S262144x512 : Shape := ⟨2, ![262144, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩

abbrev nBuf : Space → Nat
  | .hbm => 22
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S8x2, .f32⟩
  | .hbm, ⟨2, _⟩ => ⟨S64x64, .i32⟩
  | .hbm, ⟨3, _⟩ => ⟨S_, .i32⟩
  | .hbm, ⟨4, _⟩ => ⟨S64x64, .i32⟩
  | .hbm, ⟨5, _⟩ => ⟨S64x64, .i1⟩
  | .hbm, ⟨6, _⟩ => ⟨S64x64, .f32⟩
  | .hbm, ⟨7, _⟩ => ⟨S64x64, .f32⟩
  | .hbm, ⟨8, _⟩ => ⟨S8x1, .f32⟩
  | .hbm, ⟨9, _⟩ => ⟨S8, .f32⟩
  | .hbm, ⟨10, _⟩ => ⟨S8x1, .f32⟩
  | .hbm, ⟨11, _⟩ => ⟨S8, .f32⟩
  | .hbm, ⟨12, _⟩ => ⟨S8, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S8x1, .f32⟩
  | .hbm, ⟨17, _⟩ => ⟨S8, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S262144x512, .f32⟩
  | .local _ .vmem, ⟨0, _⟩ => ⟨S4096x64, .f32⟩
  | .local _ .vmem, ⟨1, _⟩ => ⟨S4096x64, .f32⟩
  | .local _ .vmem, ⟨2, _⟩ => ⟨S64x64, .f32⟩
  | .local _ .vmem, ⟨3, _⟩ => ⟨S1x512, .f32⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x64 : S_.BroadcastsInDim S64x64 (![] : Fin 0 → Fin S64x64.rank)
  transposes_S64x64_S64x64_1_0 : S64x64.Transposes [1, 0] S64x64
  slices_S8x2_S8x1_0_0 : S8x2.Slices ![0, 0] S8x1
  shapeCasts_S8x1_S8 : S8x1.ShapeCasts S8
  slices_S8x2_S8x1_0_1 : S8x2.Slices ![0, 1] S8x1
  bcast_S8_S8x64_0 : S8.BroadcastsInDim S8x64 (![0] : Fin 1 → Fin S8x64.rank)
  shapeCasts_S8x64_S512 : S8x64.ShapeCasts S512
  shapeCasts_S512_S1x512 : S512.ShapeCasts S1x512
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S4096x64_S4096 : S4096x64.Reduces [1] S4096
  shapeCasts_S4096_S4096x1 : S4096.ShapeCasts S4096x1
  concatenates_S4096x64_S4096x64_S4096x128_d1 : Shape.Concatenates [S4096x64, S4096x64] S4096x128 1
  slices_S1x512_o0_0_S1x128 : S1x512.Slices ![0, 0] S1x128
  broadcasts_S1x128_S4096x128 : S1x128.Broadcasts S4096x128
  broadcasts_S4096x1_S4096x128 : S4096x1.Broadcasts S4096x128
  inb_S4096x512_S4096x128_0_0 : ∀ a, (![0, 0] : Fin 2 → Nat) a + S4096x128.size a ≤ S4096x512.size a
  h_S4096x128 : 0 < S4096x128.numel
  slices_S1x512_o0_128_S1x128 : S1x512.Slices ![0, 128] S1x128
  inb_S4096x512_S4096x128_0_128 : ∀ a, (![0, 128] : Fin 2 → Nat) a + S4096x128.size a ≤ S4096x512.size a
  slices_S1x512_o0_256_S1x128 : S1x512.Slices ![0, 256] S1x128
  inb_S4096x512_S4096x128_0_256 : ∀ a, (![0, 256] : Fin 2 → Nat) a + S4096x128.size a ≤ S4096x512.size a
  slices_S1x512_o0_384_S1x128 : S1x512.Slices ![0, 384] S1x128
  inb_S4096x512_S4096x128_0_384 : ∀ a, (![0, 384] : Fin 2 → Nat) a + S4096x128.size a ≤ S4096x512.size a
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S262144x512.size a
  hwx0_4 : ∀ i : grid0.Coords, EltTy.bits .f32 = 32 ∨ (Rect.block (s := S262144x512) S4096x512.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x64 : Shape := ⟨2, ![262144, 64]⟩
abbrev S8x2 : Shape := ⟨2, ![8, 2]⟩
abbrev S64x64 : Shape := ⟨2, ![64, 64]⟩
abbrev S_ : Shape := ⟨0, ![]⟩
abbrev S64x64x1 : Shape := ⟨3, ![64, 64, 1]⟩
abbrev S8x64x64 : Shape := ⟨3, ![8, 64, 64]⟩
abbrev S262144x8x64 : Shape := ⟨3, ![262144, 8, 64]⟩
abbrev S262144x512 : Shape := ⟨2, ![262144, 512]⟩

abbrev nBuf : Space → Nat
  | .hbm => 14
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S8x2, .f32⟩
  | .hbm, ⟨2, _⟩ => ⟨S64x64, .i32⟩
  | .hbm, ⟨3, _⟩ => ⟨S_, .i32⟩
  | .hbm, ⟨4, _⟩ => ⟨S64x64, .i32⟩
  | .hbm, ⟨5, _⟩ => ⟨S64x64, .i1⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64x1, .i32⟩
  | .hbm, ⟨11, _⟩ => ⟨S8x64x64, .f32⟩
  | .hbm, ⟨12, _⟩ => ⟨S262144x8x64, .f32⟩
  | .hbm, ⟨13, _⟩ => ⟨S262144x512, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  shapeCasts_S262144x8x64_S262144x512 : S262144x8x64.ShapeCasts S262144x512
  gather_S8x2_S64x64x1_S8x64x64_0_1_n_n_1_2_81_wf : GatherDims.WF S8x2 S64x64x1 S8x64x64 [0] [1] [] [1] [] 2 ![8, 1]
  dot_S262144x64_S8x64x64_S262144x8x64_1_2_0_01_n_n_wf : DotDims.WF S262144x64 S8x64x64 S262144x8x64 [1] [2] [0] [0, 1] [] []

variable [Facts₀]

def gather_S8x2_S64x64x1_S8x64x64_0_1_n_n_1_2_81 : GatherDims S8x2 S64x64x1 S8x64x64 where
  offsetDims := [0]
  collapsedSliceDims := [1]
  operandBatchingDims := []
  startIndicesBatchingDims := []
  startIndexMap := [1]
  indexVectorDim := 2
  sliceSizes := ![8, 1]
  wf := gather_S8x2_S64x64x1_S8x64x64_0_1_n_n_1_2_81_wf
def dot_S262144x64_S8x64x64_S262144x8x64_1_2_0_01_n_n : DotDims S262144x64 S8x64x64 S262144x8x64 where
  lhsContracting := [1]
  rhsContracting := [2]
  lhsNonContracting := [0]
  rhsNonContracting := [0, 1]
  lhsBatch := []
  rhsBatch := []
  wf := dot_S262144x64_S8x64x64_S262144x8x64_1_2_0_01_n_n_wf

class Facts : Prop extends Facts₀ where

variable [Facts]
-- ==== Proof.Spec.lean ====
/-
  The two sides of the equivalence as whole-array functions, and the law that joins them.

  Inputs: `x : [262144, 64]`, `w : [8, 2]` (extended reals), `idx : [64, 64]` (32-bit words).
  Output index `(b, c)` with `c = 64 p + m`, `p < 8`, `m < 64`.

  The reference forms, for every `(p, m, n)`, the weight `w[p, idx[m, n]]` and contracts it with row `b` of `x`:
      R(b, c) = Σ_n x[b, n] · (if idx[m, n] = 0 then w[p, 0] else w[p, 1]).
  The kernel contracts row `b` of `x` with the 0/1 mask `[idx[m, n] = 0]` and fans the two scalars out:
      K(b, c) = (Σ_n x[b, n] · [idx[m, n] = 0]) · (w[p, 0] − w[p, 1]) + (Σ_n x[b, n]) · w[p, 1].
  Since `[·]·(a − b) + b` is `a` where the mask is one and `b` where it is zero, the two agree term by term once
  the products distribute over the sums — which on the extended reals needs every `x[b, n]` and `w[p, ·]` finite.
-/
import Idealize.ShloMosaic.Lib.ValueIdx

noncomputable section

open scoped BigOperators

namespace Cert.Bridge

open Idealize.ShloMosaic Idealize.ShloMosaic.ValueIdx

/-- The matrix of inputs `x`, the table of weights `w` and the table of column selectors `idx`. -/
abbrev XArr := (⟨2, ![262144, 64]⟩ : Shape).Idx → EReal
abbrev WArr := (⟨2, ![8, 2]⟩ : Shape).Idx → EReal
abbrev IArr := (⟨2, ![64, 64]⟩ : Shape).Idx → BitVec 32
abbrev OArr := (⟨2, ![262144, 512]⟩ : Shape).Idx → EReal

/-- Output column `c = 64 p + m`: the weight row `p`. -/
def pOf (c : Fin 512) : Fin 8 := ⟨c.val / 64, by have := c.isLt; omega⟩
/-- Output column `c = 64 p + m`: the selector row `m`. -/
def mOf (c : Fin 512) : Fin 64 := ⟨c.val % 64, by have := c.isLt; omega⟩

/-- The 0/1 mask `[idx[m, n] = 0]` as an extended real. -/
def msk (idx : IArr) (m n : Fin 64) : EReal := if idx (ix2 m n) = 0#32 then 1 else 0

/-- The weight the selector picks: column 0 of row `p` where the selector is zero, column 1 elsewhere. -/
def selW (w : WArr) (idx : IArr) (p : Fin 8) (m n : Fin 64) : EReal :=
  if idx (ix2 m n) = 0#32 then w (ix2 p 0) else w (ix2 p 1)

/-- The kernel's form at row `b`, column `c`. -/
def KAt (x : XArr) (w : WArr) (idx : IArr) (b : Fin 262144) (c : Fin 512) : EReal :=
  (∑ n : Fin 64, x (ix2 b n) * msk idx (mOf c) n) * (w (ix2 (pOf c) 0) - w (ix2 (pOf c) 1))
    + (∑ n : Fin 64, x (ix2 b n)) * w (ix2 (pOf c) 1)

/-- The reference's form at row `b`, column `c`. -/
def RAt (x : XArr) (w : WArr) (idx : IArr) (b : Fin 262144) (c : Fin 512) : EReal :=
  ∑ n : Fin 64, x (ix2 b n) * selW w idx (pOf c) (mOf c) n

/-- The kernel's form as a whole array. -/
def KSpec (x : XArr) (w : WArr) (idx : IArr) : OArr := fun i => KAt x w idx (i 0) (i 1)
/-- The reference's form as a whole array. -/
def RSpec (x : XArr) (w : WArr) (idx : IArr) : OArr := fun i => RAt x w idx (i 0) (i 1)

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: a masked sum scaled by `a − b`, plus the plain sum scaled by `b`, is the sum weighted by
    `a` where the mask holds and by `b` elsewhere. -/
theorem masked_sum_real {ι : Type*} [Fintype ι] (r : ι → ℝ) (P : ι → Prop) [DecidablePred P] (a b : ℝ) :
    (∑ n, r n * (if P n then 1 else 0)) * (a - b) + (∑ n, r n) * b = ∑ n, r n * (if P n then a else b) := by
  rw [Finset.sum_mul, Finset.sum_mul, ← Finset.sum_add_distrib]
  refine Finset.sum_congr rfl fun n _ => ?_
  split_ifs <;> ring

/-- THE LAW: for finite `x` and `w` the kernel's form is the reference's form, whatever the selectors. -/
theorem KSpec_eq_RSpec (x : XArr) (w : WArr) (idx : IArr)
    (hx : ∀ j, ∃ r : ℝ, x j = (r : EReal)) (hw : ∀ j, ∃ r : ℝ, w j = (r : EReal)) :
    KSpec x w idx = RSpec x w idx := by
  choose xr hxr using hx
  choose wr hwr using hw
  funext i
  unfold KSpec RSpec KAt RAt
  have hm : ∀ m n, msk idx m n = (((if idx (ix2 m n) = 0#32 then 1 else 0 : ℝ)) : EReal) := by
    intro m n; unfold msk; split_ifs <;> simp
  have hs : ∀ p m n, selW w idx p m n
      = (((if idx (ix2 m n) = 0#32 then wr (ix2 p 0) else wr (ix2 p 1) : ℝ)) : EReal) := by
    intro p m n; unfold selW; split_ifs <;> simp [hwr]
  simp only [hxr, hwr, hm, hs, ← EReal.coe_mul, ← coe_sum, ← EReal.coe_sub, ← EReal.coe_add]
  exact congrArg _ (masked_sum_real _ _ _ _)

end Cert.Bridge

end
-- ==== Proof.PreFacts.lean ====
/-
  What the precondition says of the three inputs, entry by entry.

  The precondition is the conjunction of three "for all entries" statements:
    * every entry of `x` has absolute value below +∞,
    * every entry of `w` has absolute value below +∞,
    * every entry of `idx`, read as a signed 32-bit integer, is at least 0 and below 2.
  On the extended reals |a| = max a (−a) < ⊤ excludes both a = ⊤ and a = ⊥, so each entry of `x` and of `w`
  is a real number; and a signed word in [0, 2) is the word 0 or the word 1.
-/
import proofs.«412655_j14276471292438_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Bridge.Pre

open Idealize.ShloMosaic Idealize.ShloMosaic.ValueIdx

variable [Cert.Pre_finite_inputs.Facts]

/-- The result shape has rank zero: it has one index. -/
instance : Subsingleton Cert.Pre_finite_inputs.S_.Idx := ⟨fun a b => funext fun d => d.elim0⟩

/-- An extended real whose absolute value `max a (−a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The word `0x7F800000` (sign 0, exponent all ones, significand 0) denotes `+∞`. -/
theorem inf_word : Ideal.ofBits .f32 0x7F800000#32 = (⊤ : EReal) := by
  simp [Ideal.ofBits, Ideal.ieee]

/-- An order comparison of extended reals that came out 1 holds. -/
theorem olt_eq_one {a b : EReal} (h : Ideal.cmp .olt a b = 1#1) : a < b := by
  unfold Ideal.cmp at h
  by_contra hn
  simp [hn] at h

/-- The three conjuncts of the precondition, each as a statement about every entry. -/
theorem pre_conjuncts (x : FVec Ideal Cert.Pre_finite_inputs.S262144x64 .f32) (w : FVec Ideal Cert.Pre_finite_inputs.S8x2 .f32)
    (idx : IVec Cert.Pre_finite_inputs.S64x64 32)
    (h : Cert.Pre_finite_inputs.fn (F := Ideal) x w idx = fun _ => 1#1) :
    (∀ j, max (x j) (-(x j)) < (⊤ : EReal)) ∧ (∀ j, max (w j) (-(w j)) < (⊤ : EReal))
      ∧ ∀ j, (0 : Int) ≤ (idx j).toInt ∧ (idx j).toInt < 2 := by
  have h0 := congrFun h ValueIdx.ix0
  dsimp only [Cert.Pre_finite_inputs.fn] at h0
  change IntOp.andi (IntOp.andi _ _) _ = 1#1 at h0
  obtain ⟨h12, h3⟩ := IntOp.andi_eq_one.1 h0
  obtain ⟨h1, h2⟩ := IntOp.andi_eq_one.1 h12
  refine ⟨fun j => ?_, fun j => ?_, fun j => ?_⟩
  · have e : Ideal.cmp .olt (max (x j) (-(x j))) (Ideal.ofBits .f32 0x7F800000#32) = 1#1 :=
      Host.reduce_andi_all _ _ _ _ _ h1 j
    rw [inf_word] at e
    exact olt_eq_one e
  · have e : Ideal.cmp .olt (max (w j) (-(w j))) (Ideal.ofBits .f32 0x7F800000#32) = 1#1 :=
      Host.reduce_andi_all _ _ _ _ _ h2 j
    rw [inf_word] at e
    exact olt_eq_one e
  · have e : IntOp.andi (IntOp.cmpi .sge (idx j) 0#32) (IntOp.cmpi .slt (idx j) 2#32) = 1#1 :=
      Host.reduce_andi_all _ _ _ _ _ h3 j
    obtain ⟨ea, eb⟩ := IntOp.andi_eq_one.1 e
    rw [IntOp.cmpi_sge, show (0#32 : BitVec 32).toInt = 0 from by decide] at ea
    rw [IntOp.cmpi_slt, show (2#32 : BitVec 32).toInt = 2 from by decide] at eb
    exact ⟨ea, eb⟩

/-- Every entry of `x` is a real number. -/
theorem x_finite (x : FVec Ideal Cert.Pre_finite_inputs.S262144x64 .f32) (w : FVec Ideal Cert.Pre_finite_inputs.S8x2 .f32)
    (idx : IVec Cert.Pre_finite_inputs.S64x64 32)
    (h : Cert.Pre_finite_inputs.fn (F := Ideal) x w idx = fun _ => 1#1) : ∀ j, ∃ r : ℝ, x j = (r : EReal) :=
  fun j => real_of_abs_lt_top _ ((pre_conjuncts x w idx h).1 j)

/-- Every entry of `w` is a real number. -/
theorem w_finite (x : FVec Ideal Cert.Pre_finite_inputs.S262144x64 .f32) (w : FVec Ideal Cert.Pre_finite_inputs.S8x2 .f32)
    (idx : IVec Cert.Pre_finite_inputs.S64x64 32)
    (h : Cert.Pre_finite_inputs.fn (F := Ideal) x w idx = fun _ => 1#1) : ∀ j, ∃ r : ℝ, w j = (r : EReal) :=
  fun j => real_of_abs_lt_top _ ((pre_conjuncts x w idx h).2.1 j)

/-- Every entry of `idx` is the word 0 or the word 1: a signed word in [0, 2) has signed value 0 or 1. -/
theorem idx_range (x : FVec Ideal Cert.Pre_finite_inputs.S262144x64 .f32) (w : FVec Ideal Cert.Pre_finite_inputs.S8x2 .f32)
    (idx : IVec Cert.Pre_finite_inputs.S64x64 32)
    (h : Cert.Pre_finite_inputs.fn (F := Ideal) x w idx = fun _ => 1#1) : ∀ j, idx j = 0#32 ∨ idx j = 1#32 := by
  intro j
  obtain ⟨h0, h2⟩ := (pre_conjuncts x w idx h).2.2 j
  have hc : (idx j).toInt = 0 ∨ (idx j).toInt = 1 := by omega
  rcases hc with hc | hc
  · exact Or.inl (BitVec.eq_of_toInt_eq (by rw [hc]; decide))
  · exact Or.inr (BitVec.eq_of_toInt_eq (by rw [hc]; decide))

end Cert.Bridge.Pre

end
-- ==== Proof.RefValue.lean ====
/-
  What the reference computes at an output index.

  The reference first replaces every selector word `idx[m, n]` that is negative (as a signed integer) by
  `idx[m, n] + 2`, leaving the others alone; it then forms the table `g[p, m, n] = w[p, c]` where `c` is that
  adjusted word read signed and clamped into `[0, 1]`; it contracts row `b` of `x` against the last axis of `g`,
      v[b, p, m] = Σ_n x[b, n] · g[p, m, n],
  and finally lays the `(p, m)` axes out as one column axis `c = 64 p + m`.
  When every selector word is `0` or `1` the adjustment changes nothing and the clamp is the word itself, so
      out[b, 64 p + m] = Σ_n x[b, n] · (if idx[m, n] = 0 then w[p, 0] else w[p, 1]).
-/
import proofs.«412655_j14276471292438_3_alg».proof.Proof.Gen.ReferenceIdeal.Read
import proofs.«412655_j14276471292438_3_alg».proof.Proof.Spec
import Idealize.ShloMosaic.Lib.ValueIdx
import Idealize.ShloMosaic.PureOps.Ideal.Laws

noncomputable section

open scoped BigOperators

namespace Cert.Bridge.Ref

open Idealize.ShloMosaic Idealize.ShloMosaic.ValueIdx
open Cert.ReferenceIdeal Cert.ReferenceIdeal.Gen Cert.ReferenceIdeal.Read

/-- The table lookup read at `(p, m, n)`: row `p` of the operand at the column the start index `[m, n, 0]` names,
    read signed and clamped into `[0, 1]`. -/
theorem gather_apply {α : Type} (w : S8x2.Idx → α) (i5 : IVec S64x64x1 32) (p : Fin 8) (m n : Fin 64) :
    Host.gather gather_S8x2_S64x64x1_S8x64x64_0_1_n_n_1_2_81 w i5 (ix3 p m n)
      = w (ix2 p ⟨min (i5 (ix3 m n 0)).toInt.toNat 1, by omega⟩) := by
  unfold Host.gather
  congr 1
  funext a
  refine Fin.ext ?_
  match a with
  | ⟨0, _⟩ =>
    show gather_S8x2_S64x64x1_S8x64x64_0_1_n_n_1_2_81.start (ix3 p m n) i5 0
        + gather_S8x2_S64x64x1_S8x64x64_0_1_n_n_1_2_81.batchCoord (ix3 p m n) 0
        + gather_S8x2_S64x64x1_S8x64x64_0_1_n_n_1_2_81.offCoord (ix3 p m n) 0 = p.val
    rw [GatherDims.batchCoord_eq_zero _ _ _ List.not_mem_nil]
    unfold GatherDims.start
    rw [dif_neg (show ¬(0 : Fin S8x2.rank) ∈ gather_S8x2_S64x64x1_S8x64x64_0_1_n_n_1_2_81.startIndexMap by decide)]
    unfold GatherDims.offCoord
    rw [dif_pos (show (0 : Fin S8x2.rank) ∈ gather_S8x2_S64x64x1_S8x64x64_0_1_n_n_1_2_81.sKept by decide)]
    have h0 : ∀ h : List.idxOf (0 : Fin S8x2.rank) gather_S8x2_S64x64x1_S8x64x64_0_1_n_n_1_2_81.sKept
          < gather_S8x2_S64x64x1_S8x64x64_0_1_n_n_1_2_81.offsetDims.length,
        gather_S8x2_S64x64x1_S8x64x64_0_1_n_n_1_2_81.offsetDims[List.idxOf (0 : Fin S8x2.rank)
          gather_S8x2_S64x64x1_S8x64x64_0_1_n_n_1_2_81.sKept]'h = (0 : Fin S8x64x64.rank) := by decide
    rw [h0]
    show 0 + 0 + p.val = p.val
    omega
  | ⟨1, _⟩ =>
    show gather_S8x2_S64x64x1_S8x64x64_0_1_n_n_1_2_81.start (ix3 p m n) i5 1
        + gather_S8x2_S64x64x1_S8x64x64_0_1_n_n_1_2_81.batchCoord (ix3 p m n) 1
        + gather_S8x2_S64x64x1_S8x64x64_0_1_n_n_1_2_81.offCoord (ix3 p m n) 1 = min (i5 (ix3 m n 0)).toInt.toNat 1
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S8x2.rank) ∈ gather_S8x2_S64x64x1_S8x64x64_0_1_n_n_1_2_81.startIndexMap
      from List.mem_singleton.mpr rfl)]
    have hsi : gather_S8x2_S64x64x1_S8x64x64_0_1_n_n_1_2_81.siIdx (ix3 p m n)
        ⟨List.idxOf (1 : Fin S8x2.rank) gather_S8x2_S64x64x1_S8x64x64_0_1_n_n_1_2_81.startIndexMap,
          List.idxOf_lt_length_iff.2 (List.mem_singleton.mpr rfl)⟩ = ix3 m n 0 := by
      funext b; refine Fin.ext ?_
      match b with
      | ⟨0, _⟩ => rfl
      | ⟨1, _⟩ => rfl
      | ⟨2, _⟩ => rfl
    rw [hsi]
    rfl

/-- A selector word that is `0` or `1` is not negative as a signed integer, so the adjustment
    "add `2` where negative" leaves it as it is. -/
theorem v4_apply (idx : IVec S64x64 32) (j : S64x64.Idx) (h : idx j = 0#32 ∨ idx j = 1#32) :
    val_main_v4 (F := Ideal) idx j = idx j := by
  rw [val_main_v4_apply, val_main_v1_apply, val_main_v0_apply, val_main_c_apply]
  rcases h with h | h
  · rw [h, show IntOp.cmpi .slt 0#32 0#32 = 0#1 by decide, select_zero]
  · rw [h, show IntOp.cmpi .slt 1#32 0#32 = 0#1 by decide, select_zero]

/-- The start index `[m, n, 0]` is the selector word `idx[m, n]`. -/
theorem v5_apply (idx : IVec S64x64 32) (hidx : ∀ j, idx j = 0#32 ∨ idx j = 1#32) (m n : Fin 64) :
    val_main_v5 (F := Ideal) idx (ix3 m n 0) = idx (ix2 m n) := by
  rw [val_main_v5_apply]
  have hi : idx_main_v5 (ix3 m n 0) = ix2 m n := funext fun a => Fin.ext (by
    match a with
    | ⟨0, _⟩ => rfl
    | ⟨1, _⟩ => rfl)
  rw [hi, v4_apply idx _ (hidx _)]

/-- A word that is `0` or `1`, read signed and clamped into `[0, 1]`, names column `0` exactly when it is `0`. -/
theorem clamp_sel {α : Type} (w : S8x2.Idx → α) (p : Fin 8) (v : BitVec 32) (hv : v = 0#32 ∨ v = 1#32)
    (h : min v.toInt.toNat 1 < 2) :
    w (ix2 p ⟨min v.toInt.toNat 1, h⟩) = if v = 0#32 then w (ix2 p 0) else w (ix2 p 1) := by
  rcases hv with rfl | rfl
  · rw [if_pos rfl]
    congr 1
  · rw [if_neg (by decide)]
    congr 1

/-- The looked-up table at `(p, m, n)` is the weight the selector `idx[m, n]` picks in row `p`. -/
theorem v6_apply (w : FVec Ideal S8x2 .f32) (idx : IVec S64x64 32) (hidx : ∀ j, idx j = 0#32 ∨ idx j = 1#32)
    (p : Fin 8) (m n : Fin 64) :
    val_main_v6 (F := Ideal) w idx (ix3 p m n) = selW w idx p m n := by
  have h5 := v5_apply idx hidx m n
  unfold val_main_v6
  rw [gather_apply, clamp_sel w p _ (by rw [h5]; exact hidx _), h5]
  rfl

/-- The reference's value is the array `out[b, 64 p + m] = Σ_n x[b, n] · (the weight idx[m, n] picks in row p)`. -/
theorem val_eq_RSpec (x : FVec Ideal S262144x64 .f32) (w : FVec Ideal S8x2 .f32) (idx : IVec S64x64 32)
    (hidx : ∀ j, idx j = 0#32 ∨ idx j = 1#32) :
    val_main_v8 (F := Ideal) x w idx = Cert.Bridge.RSpec x w idx := by
  funext i
  unfold RSpec RAt
  rw [val_main_v8_apply, val_main_v7_apply]
  refine Finset.sum_congr rfl fun k _ => ?_
  have h0 : (i 0).val < 262144 := (i 0).isLt
  have h1 : (i 1).val < 512 := (i 1).isLt
  have hl : lidx_main_v7 (idx_main_v8 i) k = ix2 (i 0) k := funext fun a => Fin.ext (by
    match a with
    | ⟨0, _⟩ => show ((i 0).val * 512 + (i 1).val) / 512 = (i 0).val; omega
    | ⟨1, _⟩ => rfl)
  have hr : ridx_main_v7 (idx_main_v8 i) k = ix3 (pOf (i 1)) (mOf (i 1)) k := funext fun a => Fin.ext (by
    match a with
    | ⟨0, _⟩ => show ((i 0).val * 512 + (i 1).val) / 64 % 8 = (i 1).val / 64; omega
    | ⟨1, _⟩ => show ((i 0).val * 512 + (i 1).val) % 64 = (i 1).val % 64; omega
    | ⟨2, _⟩ => rfl)
  rw [hl, hr, v6_apply w idx hidx]
  rfl

end Cert.Bridge.Ref

end
-- ==== Proof.KernelBody.lean ====
/-
  The kernel body's value at one element of its output block, at the ideal instance.

  A block holds 4096 rows. With `X` the block of inputs [4096, 64], `M` the [64, 64] matrix operand, and `D`, `E` the two
  [1, 512] row operands, the body forms `T = X · M` (a contraction over the 64 columns of `X`), lays `T` twice side by
  side into 128 lanes, takes the row sums `s` of `X`, and stores, 128 lanes at a time,
      out[r, c] = T[r, c mod 64] · D[0, c] + s[r] · E[0, c]          (c < 512).
  Lane `l` of the doubled `T` is column `l mod 64` of `T`, and `(c mod 128) mod 64 = c mod 64`.
-/
import proofs.«412655_j14276471292438_3_alg».proof.Proof.Gen.KernelIdeal.Value
import Idealize.ShloMosaic.Lib.Pipeline.Value
import Idealize.ShloMosaic.Lib.ValueIdx
import Idealize.ShloMosaic.PureOps.Ideal.Laws

noncomputable section

open scoped BigOperators

namespace Cert.Bridge.Body

open Cert.KernelIdeal Cert.KernelIdeal.Gen Idealize.ShloMosaic Idealize.ShloMosaic.ValueIdx

/-! ## The contraction `X · M` at an index -/

theorem lhs_axis0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem lhs_axis1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem rhs_axis0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem rhs_axis1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- Entry `(r, q)` of the product into a zero accumulator: `Σ_k X[r, k] · M[k, q]`. -/
theorem prod_apply (X : FVec Ideal S4096x64 .f32) (M : FVec Ideal S64x64 .f32) (r : Fin 4096) (q : Fin 64) :
    matmul dot_S4096x64_S64x64_S4096x64_1_0_0_1_n_n (some .fp32) X M (constant (F := Ideal) S4096x64 .f32 0x00000000#32) (ix2 r q)
      = ∑ k : Fin 64, X (ix2 r k) * M (ix2 k q) := by
  simp only [matmul]
  rw [Ideal.matmul_constant_zero_apply,
    ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r q)
      ((contrEquiv1 dot_S4096x64_S64x64_S4096x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S4096x64_S64x64_S4096x64_1_0_0_1_n_n.rhsIdx (ix2 r q)
      ((contrEquiv1 dot_S4096x64_S64x64_S4096x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- Lane `l` of the product laid twice side by side is column `l mod 64` of the product. -/
theorem doubled_apply (X : FVec Ideal S4096x64 .f32) (M : FVec Ideal S64x64 .f32) (r : Fin 4096) (l : Fin 128) :
    k0_pay5 (F := Ideal) X M (ix2 r l) = ∑ k : Fin 64, X (ix2 r k) * M (ix2 k ⟨l.val % 64, Nat.mod_lt _ (by decide)⟩) := by
  have hl := l.isLt
  unfold k0_pay5
  rw [shapeCast_self]
  by_cases h : l.val < 64
  · refine (concatenate_pair_apply_left (1 : Fin S4096x128.rank) _ _ concatenates_S4096x64_S4096x64_S4096x128_d1 (ix2 r l) rfl
      (ix2 r ⟨l.val, h⟩) (fun b => by match b with | ⟨0, _⟩ => rfl | ⟨1, _⟩ => rfl)).trans ?_
    rw [prod_apply]
    refine Finset.sum_congr rfl fun k _ => ?_
    congr 2
    exact congrArg (ix2 k) (Fin.ext (by show l.val = l.val % 64; omega))
  · refine (concatenate_pair_apply_right (1 : Fin S4096x128.rank) _ _ concatenates_S4096x64_S4096x64_S4096x128_d1 (ix2 r l) rfl rfl
      (ix2 r ⟨l.val - 64, by omega⟩) (fun b hb => by
        match b with
        | ⟨0, _⟩ => rfl
        | ⟨1, _⟩ => exact absurd rfl hb) (by show l.val - 64 + 64 = l.val; omega)).trans ?_
    rw [prod_apply]
    refine Finset.sum_congr rfl fun k _ => ?_
    congr 2
    exact congrArg (ix2 k) (Fin.ext (by show l.val - 64 = l.val % 64; omega))

/-! ## The row sums at an index -/

/-- Entry `r` of the lane reduction: `Σ_k X[r, k]`. -/
theorem rowsum_apply (X : FVec Ideal S4096x64 .f32) (r : Fin 4096) :
    multiReduction (F := Ideal) .add [1] S4096 X 0x00000000#32 reduces_S4096x64_S4096 (.inl rfl) rfl (ix1 r)
      = ∑ k : Fin 64, X (ix2 r k) := by
  refine (Ideal.multiReduction_add_single X 0x00000000#32 reduces_S4096x64_S4096 (.inl rfl) rfl (ix1 r)).trans ?_
  refine Finset.sum_congr rfl fun k _ => ?_
  congr 1
  funext a
  match a with
  | ⟨0, _⟩ => rfl
  | ⟨1, _⟩ => rfl

/-! ## One element of the stored block -/

/-- Element `(r, c)` of what the body leaves in the output block. -/
theorem block_apply (X : FVec Ideal S4096x64 .f32) (M : FVec Ideal S64x64 .f32) (D E : FVec Ideal S1x512 .f32)
    (r : Fin 4096) (c : Fin 512) :
    Cert.KernelIdeal.Value.E4 (F := Ideal) X M D E (ix2 r c)
      = (∑ k : Fin 64, X (ix2 r k) * M (ix2 k ⟨c.val % 64, Nat.mod_lt _ (by decide)⟩)) * D (ix2 0 c)
        + (∑ k : Fin 64, X (ix2 r k)) * E (ix2 0 c) := by
  have hc := c.isLt
  show (k0_pay5 (F := Ideal) X M (Cert.KernelIdeal.Value.ix4_0 (ix2 r c))) * D (Cert.KernelIdeal.Value.ix4_1 (ix2 r c))
      + (multiReduction (F := Ideal) .add [1] S4096 X 0x00000000#32 reduces_S4096x64_S4096 (.inl rfl) rfl
          (Cert.KernelIdeal.Value.ix4_2 (ix2 r c))) * E (Cert.KernelIdeal.Value.ix4_3 (ix2 r c)) = _
  have e0 : Cert.KernelIdeal.Value.ix4_0 (ix2 r c) = ix2 r ⟨c.val % 128, Nat.mod_lt _ (by decide)⟩ :=
    funext fun a => by match a with | ⟨0, _⟩ => rfl | ⟨1, _⟩ => rfl
  have e1 : Cert.KernelIdeal.Value.ix4_1 (ix2 r c) = ix2 0 c :=
    funext fun a => by match a with | ⟨0, _⟩ => rfl | ⟨1, _⟩ => rfl
  have e2 : Cert.KernelIdeal.Value.ix4_2 (ix2 r c) = ix1 r :=
    funext fun a => by match a with | ⟨0, _⟩ => rfl
  have e3 : Cert.KernelIdeal.Value.ix4_3 (ix2 r c) = ix2 0 c :=
    funext fun a => by match a with | ⟨0, _⟩ => rfl | ⟨1, _⟩ => rfl
  rw [e0, e1, e2, e3]
  have hA : k0_pay5 (F := Ideal) X M (ix2 r ⟨c.val % 128, Nat.mod_lt _ (by decide)⟩)
      = ∑ k : Fin 64, X (ix2 r k) * M (ix2 k ⟨c.val % 64, Nat.mod_lt _ (by decide)⟩) := by
    refine (doubled_apply X M r ⟨c.val % 128, Nat.mod_lt _ (by decide)⟩).trans ?_
    refine Finset.sum_congr rfl fun k _ => ?_
    congr 2
    exact congrArg (ix2 k) (Fin.ext (by show c.val % 128 % 64 = c.val % 64; omega))
  exact congrArg₂ (· + ·) (congrArg (· * D (ix2 0 c)) hA) (congrArg (· * E (ix2 0 c)) (rowsum_apply X r))

end Cert.Bridge.Body

end
-- ==== Proof.KernelHost.lean ====
/-
  The three operands the host prepares before the region, read at an index.

  With `w : [8, 2]` and `idx : [64, 64]` the arguments:
    the matrix operand is the transposed 0/1 mask,   M[n, m] = [idx[m, n] = 0];
    the first row operand repeats each difference 64 times,   D[0, 64 p + m] = w[p, 0] − w[p, 1];
    the second row operand repeats the second column likewise,   E[0, 64 p + m] = w[p, 1].
  A row of 512 is the row-major flattening of [8, 64], so position `q` comes from `(q / 64, q mod 64)`.
-/
import proofs.«412655_j14276471292438_3_alg».proof.Proof.Gen.KernelIdeal.Frame
import proofs.«412655_j14276471292438_3_alg».proof.Proof.Spec
import Idealize.ShloMosaic.Lib.StableHlo.Run
import Idealize.ShloMosaic.Lib.StableHlo.Predicate
import Idealize.ShloMosaic.Lib.Pipeline.Value
import Idealize.ShloMosaic.Lib.ValueIdx

noncomputable section

namespace Cert.Bridge.Host

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The weights and the selectors as the program was launched with them. -/
abbrev wArg (c : Dev nD) : Cert.Bridge.WArr := m (c, Proc.tc.devRef main_arg1)
abbrev iArg (c : Dev nD) : Cert.Bridge.IArr := m (c, Proc.tc.devRef main_arg2)

/-! ## The composed terms -/

theorem mask_term (c : Dev nD) : (V m c main_v3 : S64x64.Idx → EReal)
    = transpose S64x64 [1, 0] (uitofp (F := Ideal) .f32 (cmpi .eq (iArg m c)
        (broadcastInDim S64x64 ![] bcast_S_S64x64 (constantI S_ 32 0#32)))) transposes_S64x64_S64x64_1_0 := by
  dsimp only [Gen.V, Gen.hostOps0]; after_results

theorem diff_term (c : Dev nD) : (V m c main_v11 : S1x512.Idx → EReal)
    = shapeCast S1x512 (shapeCast S512 (broadcastInDim S8x64 ![0] bcast_S8_S8x64_0
        (subf (F := Ideal) (φ := .f32)
          (shapeCast S8 (extractStridedSlice S8x1 ![0, 0] (wArg m c) slices_S8x2_S8x1_0_0) shapeCasts_S8x1_S8)
          (shapeCast S8 (extractStridedSlice S8x1 ![0, 1] (wArg m c) slices_S8x2_S8x1_0_1) shapeCasts_S8x1_S8)))
        shapeCasts_S8x64_S512) shapeCasts_S512_S1x512 := by
  dsimp only [Gen.V, Gen.hostOps0]; after_results; rfl

theorem col1_term (c : Dev nD) : (V m c main_v16 : S1x512.Idx → EReal)
    = shapeCast S1x512 (shapeCast S512 (broadcastInDim S8x64 ![0] bcast_S8_S8x64_0
        (shapeCast S8 (extractStridedSlice S8x1 ![0, 1] (wArg m c) slices_S8x2_S8x1_0_1) shapeCasts_S8x1_S8))
        shapeCasts_S8x64_S512) shapeCasts_S512_S1x512 := by
  dsimp only [Gen.V, Gen.hostOps0]; after_results; rfl

/-! ## A column of `w` repeated along a row of 512 -/

/-- Column `j` of `w` as a vector of 8, read at `p`. -/
theorem column_apply (W : Cert.Bridge.WArr) (j : Fin 2) (h : S8x2.Slices ![0, j.val] S8x1) (p : Fin 8) :
    shapeCast S8 (extractStridedSlice S8x1 ![0, j.val] W h) shapeCasts_S8x1_S8 (ix1 p) = W (ix2 p j) := by
  refine (shapeCast_apply _ shapeCasts_S8x1_S8 (ix1 p) (ix2 p (0 : Fin 1))
    (by rw [Shape.rowMajor_val_one, Shape.rowMajor_val_two]; show p.val * 1 + 0 = p.val; omega)).trans ?_
  exact extractStridedSlice_apply ![0, j.val] W h (ix2 p (0 : Fin 1)) (ix2 p j) (fun a => by
    match a with
    | ⟨0, _⟩ => show p.val = 0 + p.val; omega
    | ⟨1, _⟩ => show j.val = j.val + 0; omega)

/-- A vector of 8 repeated 64 times each and laid out as a row of 512: position `q` reads entry `q / 64`. -/
theorem repeat_apply (v : S8.Idx → EReal) (q : Fin 512) :
    shapeCast S1x512 (shapeCast S512 (broadcastInDim S8x64 ![0] bcast_S8_S8x64_0 v) shapeCasts_S8x64_S512)
        shapeCasts_S512_S1x512 (ix2 0 q) = v (ix1 (Cert.Bridge.pOf q)) := by
  have hq := q.isLt
  refine (shapeCast_apply _ shapeCasts_S512_S1x512 (ix2 (0 : Fin 1) q) (ix1 q)
    (by rw [Shape.rowMajor_val_one, Shape.rowMajor_val_two]; show q.val = 0 * 512 + q.val; omega)).trans ?_
  refine (shapeCast_apply _ shapeCasts_S8x64_S512 (ix1 q) (ix2 (Cert.Bridge.pOf q) (Cert.Bridge.mOf q))
    (by rw [Shape.rowMajor_val_one, Shape.rowMajor_val_two]; show q.val / 64 * 64 + q.val % 64 = q.val; omega)).trans ?_
  exact broadcastInDim_apply ![0] bcast_S8_S8x64_0 v (ix2 (Cert.Bridge.pOf q) (Cert.Bridge.mOf q)) (ix1 (Cert.Bridge.pOf q))
    (fun a => by
      match a with
      | ⟨0, _⟩ => show q.val / 64 = if (8 : Nat) = 1 then 0 else q.val / 64; rw [if_neg (by decide)])

/-! ## The three operands at an index -/

/-- The first row operand at position `q = 64 p + m`: `w[p, 0] − w[p, 1]`. -/
theorem diff_apply (c : Dev nD) (q : Fin 512) :
    (V m c main_v11 : S1x512.Idx → EReal) (ix2 0 q)
      = wArg m c (ix2 (Cert.Bridge.pOf q) 0) - wArg m c (ix2 (Cert.Bridge.pOf q) 1) := by
  rw [diff_term]
  refine (repeat_apply _ q).trans ?_
  show _ - _ = _
  exact congrArg₂ (· - ·) (column_apply (wArg m c) 0 slices_S8x2_S8x1_0_0 _) (column_apply (wArg m c) 1 slices_S8x2_S8x1_0_1 _)

/-- The second row operand at position `q = 64 p + m`: `w[p, 1]`. -/
theorem col1_apply (c : Dev nD) (q : Fin 512) :
    (V m c main_v16 : S1x512.Idx → EReal) (ix2 0 q) = wArg m c (ix2 (Cert.Bridge.pOf q) 1) := by
  rw [col1_term]
  refine (repeat_apply _ q).trans ?_
  exact column_apply (wArg m c) 1 slices_S8x2_S8x1_0_1 _

/-- The matrix operand at `(n, mm)`: the 0/1 mask of selector `(mm, n)`. -/
theorem mask_apply (c : Dev nD) (n mm : Fin 64) :
    (V m c main_v3 : S64x64.Idx → EReal) (ix2 n mm) = Cert.Bridge.msk (iArg m c) mm n := by
  rw [mask_term]
  refine (transpose_apply [1, 0] _ transposes_S64x64_S64x64_1_0 (ix2 n mm) (ix2 mm n) (fun b => by
    match b with
    | ⟨0, _⟩ => rfl
    | ⟨1, _⟩ => rfl)).trans ?_
  show FloatOps.uitofp (F := Ideal) .f32 (IntOp.cmpi .eq (iArg m c (ix2 mm n)) (broadcastInDim S64x64 ![] bcast_S_S64x64 (constantI S_ 32 0#32) (ix2 mm n))) = _
  have hb : broadcastInDim S64x64 ![] bcast_S_S64x64 (constantI S_ 32 0#32) (ix2 mm n) = 0#32 :=
    broadcastInDim_apply ![] bcast_S_S64x64 (constantI S_ 32 0#32) (ix2 mm n) ix0 (fun a => a.elim0)
  rw [hb]
  unfold Cert.Bridge.msk
  by_cases h : iArg m c (ix2 mm n) = 0#32
  · rw [if_pos h, StableHlo.Predicate.cmpi_eq_iff.mpr h]
    show (((1#1 : BitVec 1).toNat : ℝ) : EReal) = 1
    norm_num
  · rw [if_neg h, eq_zero_of_ne_one (fun h1 => h (StableHlo.Predicate.cmpi_eq_iff.mp h1))]
    show (((0#1 : BitVec 1).toNat : ℝ) : EReal) = 0
    norm_num

end Cert.Bridge.Host

end
-- ==== Proof.KernelValue.lean ====
/-
  The kernel's output array after the run, as one function of the arguments.

  The grid has 64 points. Point `t` reads rows `4096 t … 4096 t + 4095` of `x` and the whole of the three prepared
  operands, and writes rows `4096 t … 4096 t + 4095` of the output, all 512 columns. So element `(r, c)` of the block
  point `t` writes is element `(4096 t + r, c)` of the array
      K[b, c] = (Σ_n x[b, n] · [idx[c mod 64, n] = 0]) · (w[c / 64, 0] − w[c / 64, 1]) + (Σ_n x[b, n]) · w[c / 64, 1],
  and the 64 blocks tile the array: row `b` lies in the block of point `b / 4096`.
-/
import proofs.«412655_j14276471292438_3_alg».proof.Proof.Gen.KernelIdeal.Value
import proofs.«412655_j14276471292438_3_alg».proof.Proof.Spec
import proofs.«412655_j14276471292438_3_alg».proof.Proof.KernelBody
import proofs.«412655_j14276471292438_3_alg».proof.Proof.KernelHost

noncomputable section

open scoped BigOperators

namespace Cert.Bridge.Kernel

open Cert.KernelIdeal Cert.KernelIdeal.Gen Idealize.ShloMosaic Idealize.ShloMosaic.TcCoe Idealize.SL.Sem
open Idealize.ShloMosaic.ValueIdx Cert.Bridge Cert.Bridge.Host
open Idealize.ShloMosaic.Pipeline (Dat)

variable (m : (ℓ : Loc nD τ sig) → Buf (Elt Ideal) ℓ) (ρ : Dev nD → PrngReg)

/-- The inputs as the program was launched with them. -/
abbrev xArg (c : Dev nD) : XArr := m (c, Proc.tc.devRef main_arg0)

theorem zero_offsets : (![0, 0] : Fin 2 → Nat) = fun _ => 0 := funext fun a => by fin_cases a <;> rfl

/-- The block indices at point `t`: the inputs' and the output's row block is `t`, every other block index is `0`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 64 := lt_of_lt_of_eq t.isLt N_0

/-! ## The input blocks at a point -/

/-- Row `r` of the block of `x` at point `t` is row `4096 t + r` of `x`. -/
theorem xblock_apply (c : Dev nD) (t : Fin cfg0.N) (r : Fin 4096) (k : Fin 64) :
    iblk m c 0 t (ix2 r k) = xArg m c (ix2 ⟨t.val * 4096 + r.val, by have := point_lt t; have := r.isLt; omega⟩ k) := by
  obtain ⟨e0, e1, -⟩ := block_indices t
  show V m c main_arg0 (((cfg0.win 0).blk t).view.emb (ix2 r k)) = _
  rw [V_main_arg0]
  show xArg m c _ = _
  refine congrArg (xArg m c) (funext fun a => Fin.ext ?_)
  match a with
  | ⟨0, _⟩ => show win0_0.index t (0 : Fin 2) * 4096 + 1 * r.val = t.val * 4096 + r.val; omega
  | ⟨1, _⟩ => show win0_0.index t (1 : Fin 2) * 64 + 1 * k.val = k.val; omega

/-- The block of the matrix operand is the whole operand. -/
theorem mblock_apply (c : Dev nD) (t : Fin cfg0.N) (k q : Fin 64) :
    iblk m c 1 t (ix2 k q) = msk (iArg m c) q k := by
  obtain ⟨-, -, e0, e1, -⟩ := block_indices t
  refine Eq.trans ?_ (mask_apply m c k q)
  show V m c main_v3 (((cfg0.win 1).blk t).view.emb (ix2 k q)) = V m c main_v3 (ix2 k q)
  refine congrArg (V m c main_v3) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The block of the first row operand is the whole operand. -/
theorem dblock_apply (c : Dev nD) (t : Fin cfg0.N) (q : Fin 512) :
    iblk m c 2 t (ix2 0 q) = wArg m c (ix2 (pOf q) 0) - wArg m c (ix2 (pOf q) 1) := by
  obtain ⟨-, -, -, -, e0, e1, -⟩ := block_indices t
  refine Eq.trans ?_ (diff_apply m c q)
  show V m c main_v11 (((cfg0.win 2).blk t).view.emb (ix2 0 q)) = V m c main_v11 (ix2 0 q)
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 512 + 1 * q.val = q.val; omega

/-- The block of the second row operand is the whole operand. -/
theorem eblock_apply (c : Dev nD) (t : Fin cfg0.N) (q : Fin 512) :
    iblk m c 3 t (ix2 0 q) = wArg m c (ix2 (pOf q) 1) := by
  obtain ⟨-, -, -, -, -, -, e0, e1, -⟩ := block_indices t
  refine Eq.trans ?_ (col1_apply m c q)
  show V m c main_v16 (((cfg0.win 3).blk t).view.emb (ix2 0 q)) = V m c main_v16 (ix2 0 q)
  refine congrArg (V m c main_v16) (funext fun a => Fin.ext ?_)
  match a with
  | ⟨0, _⟩ => show win0_3.index t (0 : Fin 2) * 1 + 1 * 0 = 0; omega
  | ⟨1, _⟩ => show win0_3.index t (1 : Fin 2) * 512 + 1 * q.val = q.val; omega

/-! ## What a point writes -/

/-- Element `(r, c)` of the block point `t` leaves is `K[4096 t + r, c]`. -/
theorem point_value (c : Dev nD) (t : Fin cfg0.N) (r : Fin 4096) (q : Fin 512) :
    Cert.KernelIdeal.Value.E4 (F := Ideal) (iblk m c 0 t) (iblk m c 1 t) (iblk m c 2 t) (iblk m c 3 t) (ix2 r q)
      = KAt (xArg m c) (wArg m c) (iArg m c) ⟨t.val * 4096 + r.val, by have := point_lt t; have := r.isLt; omega⟩ q := by
  refine (Cert.Bridge.Body.block_apply (iblk m c 0 t) (iblk m c 1 t) (iblk m c 2 t) (iblk m c 3 t) r q).trans ?_
  unfold KAt
  refine congrArg₂ (· + ·) (congrArg₂ (· * ·) (Finset.sum_congr rfl fun k _ => ?_) (dblock_apply m c t q))
    (congrArg₂ (· * ·) (Finset.sum_congr rfl fun k _ => xblock_apply m c t r k) (eblock_apply m c t q))
  exact congrArg₂ (· * ·) (xblock_apply m c t r k) (mblock_apply m c t k _)

/-- WHAT POINT `t` WRITES BACK is its block of `K`. -/
theorem flushed_eq (c : Dev nD) (t : Fin cfg0.N) :
    (dats m 0 c).flushed 4 t
      = ((cfg0.win 4).blk t).view.read (Elt Ideal) (KSpec (xArg m c) (wArg m c) (iArg m c)) := by
  obtain ⟨-, -, -, -, -, -, -, -, e0, e1⟩ := block_indices t
  rw [Cert.KernelIdeal.Value.flushed4]
  unfold out0_4
  simp only [View.ld_unit_zero (S := S4096x64) zero_offsets, View.ld_unit_zero (S := S64x64) zero_offsets,
    View.ld_unit_zero (S := S1x512) zero_offsets]
  funext j
  have hj0 : (j 0).val < 4096 := (j 0).isLt
  have hj1 : (j 1).val < 512 := (j 1).isLt
  refine (Cert.KernelIdeal.Value.canon4_eq (iblk m c 0 t) (iblk m c 1 t) (iblk m c 2 t) (iblk m c 3 t) j).trans ?_
  refine ((congrArg (Cert.KernelIdeal.Value.E4 (F := Ideal) (iblk m c 0 t) (iblk m c 1 t) (iblk m c 2 t) (iblk m c 3 t))
    (eq_ix2 j)).trans (point_value m c t (j 0) (j 1))).trans ?_
  show KAt (xArg m c) (wArg m c) (iArg m c) _ _
    = KAt (xArg m c) (wArg m c) (iArg m c) ((((cfg0.win 4).blk t).view.emb j) 0) ((((cfg0.win 4).blk t).view.emb j) 1)
  refine congrArg₂ (KAt (xArg m c) (wArg m c) (iArg m c)) (Fin.ext ?_) (Fin.ext ?_)
  · show t.val * 4096 + (j 0).val = win0_4.index t (0 : Fin 2) * 4096 + 1 * (j 0).val; omega
  · show (j 1).val = win0_4.index t (1 : Fin 2) * 512 + 1 * (j 1).val; omega

/-! ## The blocks tile the array -/

theorem mem_block (t : Fin cfg0.N) (i : S262144x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v17).slice (win0_4.rect t)).set ↔ _
  rw [View.set_slice_whole, Rect.mem_set_unit]
  exact Iff.rfl

/-- Row `b` of the output lies in the block of point `b / 4096`. -/
theorem covered (i : S262144x512.Idx) :
    ∃ t : Fin cfg0.N, (cfg0.win 4).flush t = true ∧ i ∈ ((cfg0.win 4).blk t).view.set := by
  have hi0 : (i 0).val < 262144 := (i 0).isLt
  have hi1 : (i 1).val < 512 := (i 1).isLt
  have hN : cfg0.N = 64 := N_0
  let t : Fin cfg0.N := ⟨(i 0).val / 4096, by rw [hN]; omega⟩
  obtain ⟨-, -, -, -, -, -, -, -, e0, e1⟩ := block_indices t
  have ht : t.val = (i 0).val / 4096 := rfl
  refine ⟨t, flush0_4 t, ?_⟩
  rw [mem_block]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 512 ≤ (i 1).val ∧ (i 1).val < win0_4.index t (1 : Fin 2) * 512 + 512; omega

/-! ## The array after the run -/

/-- THE OUTPUT ARRAY after the run is `K` of the arguments. -/
theorem final (c : Dev nD) :
    (dats m 0 c).arrAt 4 cfg0.N = KSpec (xArg m c) (wArg m c) (iArg m c) :=
  (dats m 0 c).arrAt_eq_of_cover 4 (KSpec (xArg m c) (wArg m c) (iArg m c)) (fun t _ => flushed_eq m c t) covered

/-- The run: every weakly fair execution ends with the output array at `K` of the arguments and the arguments unchanged. -/
theorem run : θ_run defs (onTc (τ := τ) (main (F := Ideal))) ⟨m, fun _ => 0, ρ⟩ fun r => ∀ c : Dev nD,
      r.2.mem ((c : Thread nD τ).loc main_v17) = KSpec (xArg m c) (wArg m c) (iArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Bridge.Kernel

end
-- ==== Proof.lean ====
/-
  The kernel against its reference, over the extended reals.

  Inputs `x : [262144, 64]`, `w : [8, 2]`, selectors `idx : [64, 64]`; output `[262144, 512]`, column `c = 64 p + m`.
  The reference gathers `W[p, m, n] = w[p, idx[m, n]]` and contracts: `out[b, c] = Σ_n x[b, n] · W[p, m, n]`.
  The kernel never forms `W`: it contracts `x` with the 0/1 mask `[idx[m, n] = 0]`, takes the row sums of `x`, and
  combines them with the two columns of `w`:
      out[b, c] = (Σ_n x[b, n] · [idx[m, n] = 0]) · (w[p, 0] − w[p, 1]) + (Σ_n x[b, n]) · w[p, 1].
  For selectors in `{0, 1}` the gathered weight is `w[p, 0]` where the mask is one and `w[p, 1]` where it is zero, which
  is `[·]·(w[p, 0] − w[p, 1]) + w[p, 1]`; distributing the products over the sums — valid because the precondition makes
  every entry of `x` and `w` a real number — turns one expression into the other (`Cert.Bridge.KSpec_eq_RSpec`).
  The precondition also says every selector is `0` or `1`: outside that range the two programs pick columns of `w`
  by different rules.

  The three runs: the word-level kernel's and the idealized kernel's frames are the generated frame certificates; the
  reference has no kernel, so its frame is its run with the result dropped. No operation of the kernel was rewritten
  when it was idealized, so that conjunct is trivial. For the value conjunct, the idealized kernel's run ends with its
  output at `KSpec` of the arguments (Proof/KernelValue.lean) and the reference's with its result at `RSpec` of the
  arguments (Proof/RefValue.lean); under the precondition's three facts (Proof/PreFacts.lean) these are one array.
-/
import proofs.«412655_j14276471292438_3_alg».proof.Defs
import proofs.«412655_j14276471292438_3_alg».proof.Proof.Gen.Kernel
import proofs.«412655_j14276471292438_3_alg».proof.Proof.Gen.Kernel.Skeleton
import proofs.«412655_j14276471292438_3_alg».proof.Proof.Gen.Kernel.Launch
import proofs.«412655_j14276471292438_3_alg».proof.Proof.Gen.Kernel.Points
import proofs.«412655_j14276471292438_3_alg».proof.Proof.Gen.Kernel.Frame
import proofs.«412655_j14276471292438_3_alg».proof.Proof.Gen.KernelIdeal
import proofs.«412655_j14276471292438_3_alg».proof.Proof.Gen.KernelIdeal.Skeleton
import proofs.«412655_j14276471292438_3_alg».proof.Proof.Gen.KernelIdeal.Launch
import proofs.«412655_j14276471292438_3_alg».proof.Proof.Gen.KernelIdeal.Points
import proofs.«412655_j14276471292438_3_alg».proof.Proof.Gen.KernelIdeal.Frame
import proofs.«412655_j14276471292438_3_alg».proof.Proof.Gen.ReferenceIdeal
import proofs.«412655_j14276471292438_3_alg».proof.Proof.Gen.Pre_finite_inputs
import proofs.«412655_j14276471292438_3_alg».proof.Proof.Gen.KernelIdeal.Value
import proofs.«412655_j14276471292438_3_alg».proof.Proof.Gen.ReferenceIdeal.Run
import proofs.«412655_j14276471292438_3_alg».proof.Proof.Gen.ReferenceIdeal.Read
import proofs.«412655_j14276471292438_3_alg».proof.Proof.Spec
import proofs.«412655_j14276471292438_3_alg».proof.Proof.PreFacts
import proofs.«412655_j14276471292438_3_alg».proof.Proof.RefValue
import proofs.«412655_j14276471292438_3_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, the kernel's output at the mask-and-row-sum form and the reference's result at the gathered form of
    the same arguments; under the precondition the two forms are one array. -/
theorem algebraic : Cert.algebraic_KernelIdeal_ReferenceIdeal := by
  intro m ρ m' ρ' hpre hagree
  refine ⟨fun c => Cert.Bridge.KSpec (Cert.Bridge.Kernel.xArg m c) (Cert.Bridge.Host.wArg m c) (Cert.Bridge.Host.iArg m c),
    Cert.Bridge.Kernel.run m ρ, ?_⟩
  refine (θ_run Cert.ReferenceIdeal.defs _ _).mono (fun _ h c => ⟨(h c).1.trans ?_, (h c).2⟩)
    (Cert.ReferenceIdeal.Value.run (F := Ideal) m' ρ')
  have hp := hpre c
  rw [Cert.ReferenceIdeal.Read.val_main_v8_eq, (hagree c).1, (hagree c).2.1, (hagree c).2.2,
    Cert.Bridge.Ref.val_eq_RSpec _ _ _ (Cert.Bridge.Pre.idx_range _ _ _ hp)]
  exact (Cert.Bridge.KSpec_eq_RSpec _ _ _ (Cert.Bridge.Pre.x_finite _ _ _ hp) (Cert.Bridge.Pre.w_finite _ _ _ hp)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
